-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v66)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v66) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x800000 : Shape := ⟨2, ![2, 800000]⟩
abbrev S256x256 : Shape := ⟨2, ![256, 256]⟩
abbrev S256 : Shape := ⟨1, ![256]⟩
abbrev S256x128 : Shape := ⟨2, ![256, 128]⟩
abbrev S128 : Shape := ⟨1, ![128]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S50000x256 .f32) (main_arg1 : IVec S2x800000 32) (main_arg2 : FVec F S256x256 .f32) (main_arg3 : FVec F S256 .f32) (main_arg4 : FVec F S256x128 .f32) (main_arg5 : FVec F S128 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x256 .f32 := Host.absf main_arg2
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x128 .f32 := Host.absf main_arg4
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg5 main_v13 main_v16
-- ==== Kernel.lean ====
abbrev S50000x256 : Shape := ⟨2, ![50000, 256]⟩
abbrev S2x800000 : Shape := ⟨2, ![2, 800000]⟩
abbrev S256x256 : Shape := ⟨2, ![256, 256]⟩
abbrev S256 : Shape := ⟨1, ![256]⟩
abbrev S256x128 : Shape := ⟨2, ![256, 128]⟩
abbrev S128 : Shape := ⟨1, ![128]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S2000x256 : Shape := ⟨2, ![2000, 256]⟩
abbrev S850000x256 : Shape := ⟨2, ![850000, 256]⟩
abbrev S1x256 : Shape := ⟨2, ![1, 256]⟩
abbrev S50000x128 : Shape := ⟨2, ![50000, 128]⟩
abbrev S2000x128 : Shape := ⟨2, ![2000, 128]⟩
abbrev S850000x128 : Shape := ⟨2, ![850000, 128]⟩
abbrev S1x128 : Shape := ⟨2, ![1, 128]⟩

abbrev nBuf : Space → Nat
  | .hbm => 92
  | .vmem => 10
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S256x256, .f32⟩
  | .hbm, ⟨3, _⟩ => ⟨S256, .f32⟩
  | .hbm, ⟨4, _⟩ => ⟨S256x128, .f32⟩
  | .hbm, ⟨5, _⟩ => ⟨S128, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .f32⟩
  | .hbm, ⟨26, _⟩ => ⟨S_, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S_, .i32⟩
  | .hbm, ⟨31, _⟩ => ⟨S850000, .i32⟩
  | .hbm, ⟨32, _⟩ => ⟨S850000, .i1⟩
  | .hbm, ⟨33, _⟩ => ⟨S_, .i32⟩
  | .hbm, ⟨34, _⟩ => ⟨S850000, .i32⟩
  | .hbm, ⟨35, _⟩ => ⟨S850000, .i32⟩
  | .hbm, ⟨36, _⟩ => ⟨S850000, .i32⟩
  | .hbm, ⟨37, _⟩ => ⟨S850000x1, .i32⟩
  | .hbm, ⟨38, _⟩ => ⟨S850000, .f32⟩
  | .hbm, ⟨39, _⟩ => ⟨S_, .i32⟩
  | .hbm, ⟨40, _⟩ => ⟨S850000, .i32⟩
  | .hbm, ⟨41, _⟩ => ⟨S850000, .i1⟩
  | .hbm, ⟨42, _⟩ => ⟨S_, .i32⟩
  | .hbm, ⟨43, _⟩ => ⟨S850000, .i32⟩
  | .hbm, ⟨44, _⟩ => ⟨S850000, .i32⟩
  | .hbm, ⟨45, _⟩ => ⟨S850000, .i32⟩
  | .hbm, ⟨46, _⟩ => ⟨S850000x1, .i32⟩
  | .hbm, ⟨47, _⟩ => ⟨S850000, .f32⟩
  | .hbm, ⟨48, _⟩ => ⟨S850000, .f32⟩
  | .hbm, ⟨49, _⟩ => ⟨S50000x256, .f32⟩
  | .hbm, ⟨50, _⟩ => ⟨S_, .i32⟩
  | .hbm, ⟨51, _⟩ => ⟨S850000, .i32⟩
  | .hbm, ⟨52, _⟩ => ⟨S850000, .i1⟩
  | .hbm, ⟨53, _⟩ => ⟨S_, .i32⟩
  | .hbm, ⟨54, _⟩ => ⟨S850000, .i32⟩
  | .hbm, ⟨55, _⟩ => ⟨S850000, .i32⟩
  | .hbm, ⟨56, _⟩ => ⟨S850000, .i32⟩
  | .hbm, ⟨57, _⟩ => ⟨S850000x1, .i32⟩
  | .hbm, ⟨58, _⟩ => ⟨S850000x256, .f32⟩
  | .hbm, ⟨59, _⟩ => ⟨S850000x1, .f32⟩
  | .hbm, ⟨60, _⟩ => ⟨S850000x256, .f32⟩
  | .hbm, ⟨61, _⟩ => ⟨S850000x256, .f32⟩
  | .hbm, ⟨62, _⟩ => ⟨S_, .f32⟩
  | .hbm, ⟨63, _⟩ => ⟨S50000x256, .f32⟩
  | .hbm, ⟨64, _⟩ => ⟨S850000x1, .i32⟩
  | .hbm, ⟨65, _⟩ => ⟨S50000x256, .f32⟩
  | .hbm, ⟨66, _⟩ => ⟨S1x256, .f32⟩
  | .hbm, ⟨67, _⟩ => ⟨S50000x256, .f32⟩
  | .hbm, ⟨68, _⟩ => ⟨S50000x256, .f32⟩
  | .hbm, ⟨69, _⟩ => ⟨S_, .f32⟩
  | .hbm, ⟨70, _⟩ => ⟨S50000x256, .f32⟩
  | .hbm, ⟨71, _⟩ => ⟨S50000x256, .f32⟩
  | .hbm, ⟨72, _⟩ => ⟨S50000x128, .f32⟩
  | .hbm, ⟨73, _⟩ => ⟨S_, .i32⟩
  | .hbm, ⟨74, _⟩ => ⟨S850000, .i32⟩
  | .hbm, ⟨75, _⟩ => ⟨S850000, .i1⟩
  | .hbm, ⟨76, _⟩ => ⟨S_, .i32⟩
  | .hbm, ⟨77, _⟩ => ⟨S850000, .i32⟩
  | .hbm, ⟨78, _⟩ => ⟨S850000, .i32⟩
  | .hbm, ⟨79, _⟩ => ⟨S850000, .i32⟩
  | .hbm, ⟨80, _⟩ => ⟨S850000x1, .i32⟩
  | .hbm, ⟨81, _⟩ => ⟨S850000x128, .f32⟩
  | .hbm, ⟨82, _⟩ => ⟨S850000x1, .f32⟩
  | .hbm, ⟨83, _⟩ => ⟨S850000x128, .f32⟩
  | .hbm, ⟨84, _⟩ => ⟨S850000x128, .f32⟩
  | .hbm, ⟨85, _⟩ => ⟨S_, .f32⟩
  | .hbm, ⟨86, _⟩ => ⟨S50000x128, .f32⟩
  | .hbm, ⟨87, _⟩ => ⟨S850000x1, .i32⟩
  | .hbm, ⟨88, _⟩ => ⟨S50000x128, .f32⟩
  | .hbm, ⟨89, _⟩ => ⟨S1x128, .f32⟩
  | .hbm, ⟨90, _⟩ => ⟨S50000x128, .f32⟩
  | .hbm, ⟨91, _⟩ => ⟨S50000x128, .f32⟩
  | .local _ .vmem, ⟨0, _⟩ => ⟨S2000x256, .f32⟩
  | .local _ .vmem, ⟨1, _⟩ => ⟨S2000x256, .f32⟩
  | .local _ .vmem, ⟨2, _⟩ => ⟨S256x256, .f32⟩
  | .local _ .vmem, ⟨3, _⟩ => ⟨S2000x256, .f32⟩
  | .local _ .vmem, ⟨4, _⟩ => ⟨S2000x256, .f32⟩
  | .local _ .vmem, ⟨5, _⟩ => ⟨S2000x256, .f32⟩
  | .local _ .vmem, ⟨6, _⟩ => ⟨S2000x256, .f32⟩
  | .local _ .vmem, ⟨7, _⟩ => ⟨S256x128, .f32⟩
  | .local _ .vmem, ⟨8, _⟩ => ⟨S2000x128, .f32⟩
  | .local _ .vmem, ⟨9, _⟩ => ⟨S2000x128, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_cst : Ref sig .tc := ⟨.hbm, 69, rfl⟩
abbrev main_call1_v0 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_c_11 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_12 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S2000x256_S2000x256_0_0 : ∀ a, (![0, 0] : Fin 2 → Nat) a + S2000x256.size a ≤ S2000x256.size a
  h_S2000x256 : 0 < S2000x256.numel
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  shapeCasts_S2000x256_S2000x256 : S2000x256.ShapeCasts S2000x256
  inb_S256x128_S256x128_0_0 : ∀ a, (![0, 0] : Fin 2 → Nat) a + S256x128.size a ≤ S256x128.size a
  h_S256x128 : 0 < S256x128.numel
  inb_S2000x128_S2000x128_0_0 : ∀ a, (![0, 0] : Fin 2 → Nat) a + S2000x128.size a ≤ S2000x128.size a
  h_S2000x128 : 0 < S2000x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S2000x256_S256x256_S2000x256_1_0_0_1_n_n_wf : DotDims.WF S2000x256 S256x256 S2000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S2000x256_S256x128_S2000x128_1_0_0_1_n_n_wf : DotDims.WF S2000x256 S256x128 S2000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S50000x256.size a
  hwx0_0 : ∀ i : grid0.Coords, EltTy.bits .f32 = 32 ∨ (Rect.block (s := S50000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x256.size a ≤ S50000x256.size a
  hwx0_2 : ∀ i : grid0.Coords, EltTy.bits .f32 = 32 ∨ (Rect.block (s := S50000x256) S2000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x128.size a ≤ S256x128.size a
  hwx1_1 : ∀ i : grid1.Coords, EltTy.bits .f32 = 32 ∨ (Rect.block (s := S256x128) S256x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S50000x128.size a
  hwx1_2 : ∀ i : grid1.Coords, EltTy.bits .f32 = 32 ∨ (Rect.block (s := S50000x128) S2000x128.size (cc1_transform_2 i) (hinb1_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S2000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v49) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S256x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v50) S2000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S50000x256 : Shape := ⟨2, ![50000, 256]⟩
abbrev S2x800000 : Shape := ⟨2, ![2, 800000]⟩
abbrev S256x256 : Shape := ⟨2, ![256, 256]⟩
abbrev S256 : Shape := ⟨1, ![256]⟩
abbrev S256x128 : Shape := ⟨2, ![256, 128]⟩
abbrev S128 : Shape := ⟨1, ![128]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x256 : Shape := ⟨2, ![850000, 256]⟩
abbrev S1x256 : Shape := ⟨2, ![1, 256]⟩
abbrev S50000x128 : Shape := ⟨2, ![50000, 128]⟩
abbrev S850000x128 : Shape := ⟨2, ![850000, 128]⟩
abbrev S1x128 : Shape := ⟨2, ![1, 128]⟩

abbrev nBuf : Space → Nat
  | .hbm => 92
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S256x256, .f32⟩
  | .hbm, ⟨3, _⟩ => ⟨S256, .f32⟩
  | .hbm, ⟨4, _⟩ => ⟨S256x128, .f32⟩
  | .hbm, ⟨5, _⟩ => ⟨S128, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .f32⟩
  | .hbm, ⟨26, _⟩ => ⟨S_, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S_, .i32⟩
  | .hbm, ⟨31, _⟩ => ⟨S850000, .i32⟩
  | .hbm, ⟨32, _⟩ => ⟨S850000, .i1⟩
  | .hbm, ⟨33, _⟩ => ⟨S_, .i32⟩
  | .hbm, ⟨34, _⟩ => ⟨S850000, .i32⟩
  | .hbm, ⟨35, _⟩ => ⟨S850000, .i32⟩
  | .hbm, ⟨36, _⟩ => ⟨S850000, .i32⟩
  | .hbm, ⟨37, _⟩ => ⟨S850000x1, .i32⟩
  | .hbm, ⟨38, _⟩ => ⟨S850000, .f32⟩
  | .hbm, ⟨39, _⟩ => ⟨S_, .i32⟩
  | .hbm, ⟨40, _⟩ => ⟨S850000, .i32⟩
  | .hbm, ⟨41, _⟩ => ⟨S850000, .i1⟩
  | .hbm, ⟨42, _⟩ => ⟨S_, .i32⟩
  | .hbm, ⟨43, _⟩ => ⟨S850000, .i32⟩
  | .hbm, ⟨44, _⟩ => ⟨S850000, .i32⟩
  | .hbm, ⟨45, _⟩ => ⟨S850000, .i32⟩
  | .hbm, ⟨46, _⟩ => ⟨S850000x1, .i32⟩
  | .hbm, ⟨47, _⟩ => ⟨S850000, .f32⟩
  | .hbm, ⟨48, _⟩ => ⟨S850000, .f32⟩
  | .hbm, ⟨49, _⟩ => ⟨S50000x256, .f32⟩
  | .hbm, ⟨50, _⟩ => ⟨S_, .i32⟩
  | .hbm, ⟨51, _⟩ => ⟨S850000, .i32⟩
  | .hbm, ⟨52, _⟩ => ⟨S850000, .i1⟩
  | .hbm, ⟨53, _⟩ => ⟨S_, .i32⟩
  | .hbm, ⟨54, _⟩ => ⟨S850000, .i32⟩
  | .hbm, ⟨55, _⟩ => ⟨S850000, .i32⟩
  | .hbm, ⟨56, _⟩ => ⟨S850000, .i32⟩
  | .hbm, ⟨57, _⟩ => ⟨S850000x1, .i32⟩
  | .hbm, ⟨58, _⟩ => ⟨S850000x256, .f32⟩
  | .hbm, ⟨59, _⟩ => ⟨S850000x1, .f32⟩
  | .hbm, ⟨60, _⟩ => ⟨S850000x256, .f32⟩
  | .hbm, ⟨61, _⟩ => ⟨S850000x256, .f32⟩
  | .hbm, ⟨62, _⟩ => ⟨S_, .f32⟩
  | .hbm, ⟨63, _⟩ => ⟨S50000x256, .f32⟩
  | .hbm, ⟨64, _⟩ => ⟨S850000x1, .i32⟩
  | .hbm, ⟨65, _⟩ => ⟨S50000x256, .f32⟩
  | .hbm, ⟨66, _⟩ => ⟨S1x256, .f32⟩
  | .hbm, ⟨67, _⟩ => ⟨S50000x256, .f32⟩
  | .hbm, ⟨68, _⟩ => ⟨S50000x256, .f32⟩
  | .hbm, ⟨69, _⟩ => ⟨S_, .f32⟩
  | .hbm, ⟨70, _⟩ => ⟨S50000x256, .f32⟩
  | .hbm, ⟨71, _⟩ => ⟨S50000x256, .f32⟩
  | .hbm, ⟨72, _⟩ => ⟨S50000x128, .f32⟩
  | .hbm, ⟨73, _⟩ => ⟨S_, .i32⟩
  | .hbm, ⟨74, _⟩ => ⟨S850000, .i32⟩
  | .hbm, ⟨75, _⟩ => ⟨S850000, .i1⟩
  | .hbm, ⟨76, _⟩ => ⟨S_, .i32⟩
  | .hbm, ⟨77, _⟩ => ⟨S850000, .i32⟩
  | .hbm, ⟨78, _⟩ => ⟨S850000, .i32⟩
  | .hbm, ⟨79, _⟩ => ⟨S850000, .i32⟩
  | .hbm, ⟨80, _⟩ => ⟨S850000x1, .i32⟩
  | .hbm, ⟨81, _⟩ => ⟨S850000x128, .f32⟩
  | .hbm, ⟨82, _⟩ => ⟨S850000x1, .f32⟩
  | .hbm, ⟨83, _⟩ => ⟨S850000x128, .f32⟩
  | .hbm, ⟨84, _⟩ => ⟨S850000x128, .f32⟩
  | .hbm, ⟨85, _⟩ => ⟨S_, .f32⟩
  | .hbm, ⟨86, _⟩ => ⟨S50000x128, .f32⟩
  | .hbm, ⟨87, _⟩ => ⟨S850000x1, .i32⟩
  | .hbm, ⟨88, _⟩ => ⟨S50000x128, .f32⟩
  | .hbm, ⟨89, _⟩ => ⟨S1x128, .f32⟩
  | .hbm, ⟨90, _⟩ => ⟨S50000x128, .f32⟩
  | .hbm, ⟨91, _⟩ => ⟨S50000x128, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_cst : Ref sig .tc := ⟨.hbm, 69, rfl⟩
abbrev main_call1_v0 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_c_11 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_12 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x256_S256x256_S50000x256_1_0_0_1_n_n_wf : DotDims.WF S50000x256 S256x256 S50000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S50000x256_S256x128_S50000x128_1_0_0_1_n_n_wf : DotDims.WF S50000x256 S256x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

class Facts : Prop extends Facts₀ where

variable [Facts]
-- ==== Proof.HostChain.lean ====
/-
  The host operations around the two matrix-product regions.

  Outside its two regions the kernel's program applies, in the same order and to the same buffers, the host operations
  of the reference: the edge lists with self-loops appended, the in-degree of every node by a scatter-add of ones, the
  symmetric normalisation d(src)^(-1/2) · d(dst)^(-1/2) (zero where the degree is zero), and per layer the gather of
  source rows, their scaling by the edge's normalisation, the scatter-add into destination rows and the bias, with a
  maximum against zero between the layers. The only difference is that where the reference has a whole matrix product
  the kernel's program has a region.

  So, for any interpretation of the floats: if after each region its output array is the whole product of the two
  arrays the region read, then the kernel's result buffer holds the reference's composed term of the arguments. None
  of the shared operations is opened; the two composed terms are one term.
-/
import proofs.«125844_j2448131358806_1_alg».proof.Proof.Gen.KernelIdeal.Frame
import proofs.«125844_j2448131358806_1_alg».proof.Proof.RefRun

set_option maxRecDepth 16384

noncomputable section

namespace Cert.KernelIdeal.HostChain

open Cert.KernelIdeal Cert.KernelIdeal.Gen
open Idealize.ShloMosaic Idealize.ShloMosaic.TcCoe Idealize.ShloMosaic.StableHlo
open Idealize.SL.Sem

variable {F : FTy → Type} [FloatOps F]
variable (m : (ℓ : Loc nD τ sig) → Buf (Elt F) ℓ) (ρ : Dev nD → PrngReg)

/-- The reference's dimension numbers for its two whole products: features by first weights, activations by second
    weights. -/
abbrev dA := Cert.ReferenceIdeal.dot_S50000x256_S256x256_S50000x256_1_0_0_1_n_n
abbrev dB := Cert.ReferenceIdeal.dot_S50000x256_S256x128_S50000x128_1_0_0_1_n_n

set_option maxHeartbeats 8000000 in
/-- If the first region leaves the product of the features and the first weights (`h32`) and the second region the
    product of the activations and the second weights (`h50`), each of the arrays as the region found them, then the
    result buffer at the last boundary is the reference's composed term, for memories that agree on the arguments.
    The contents at each boundary are read back one stretch of host operations at a time: a region's output by its
    hypothesis, every other buffer a stretch reads as the boundary before left it, down to the launch memory. -/
theorem result_of_products
    (m' : (ℓ : Loc Cert.ReferenceIdeal.nD Cert.ReferenceIdeal.τ Cert.ReferenceIdeal.sig) → Buf (Elt F) ℓ)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) (c : Dev nD)
    (h32 : W4 m ρ c (Proc.devRef .tc main_v32)
      = Host.dotGeneral (F := F) (φ₁ := .f32) (φ₂ := .f32) dA none (W3 m ρ c (Proc.devRef .tc main_arg0)) (W3 m ρ c (Proc.devRef .tc main_arg2)))
    (h50 : W7 m ρ c (Proc.devRef .tc main_v50)
      = Host.dotGeneral (F := F) (φ₁ := .f32) (φ₂ := .f32) dB none (W6 m ρ c (Proc.devRef .tc main_v49)) (W6 m ρ c (Proc.devRef .tc main_arg4))) :
    W8 m ρ c (Proc.devRef .tc main_v66) = Cert.ReferenceIdeal.ValueP.res_main_v66 m' c := by
  -- the second layer's aggregation and bias, over what the second region and the earlier stretches left
  show StableHlo.after hostOps2 (W7 m ρ c) (Proc.devRef .tc main_v66) = _
  simp only [hostOps2]
  after_results_simp
  rw [h50, W7_of_ne m ρ c main_v6 (by decide), W7_of_ne m ρ c main_v3 (by decide),
    W7_of_ne m ρ c main_v31 (by decide), W7_of_ne m ρ c main_arg5 (by decide)]
  -- the first layer's aggregation, bias and maximum against zero, over what the first region left
  simp only [W6, W5, hostOps1_1, hostOps1]
  after_results_simp
  rw [h32, W4_of_ne m ρ c main_v6 (by decide), W4_of_ne m ρ c main_v3 (by decide),
    W4_of_ne m ρ c main_v31 (by decide), W4_of_ne m ρ c main_arg3 (by decide), W4_of_ne m ρ c main_arg4 (by decide),
    W4_of_ne m ρ c main_arg5 (by decide)]
  -- the edge lists, the degrees and the normalisation, from the launch memory
  simp only [W3, W2, W1, hostOps0_2, hostOps0_1, hostOps0]
  after_results_simp
  -- the reference's term, read at the kernel's arguments
  unfold Cert.ReferenceIdeal.ValueP.res_main_v66
  rw [(hagree c).1, (hagree c).2.1, (hagree c).2.2.1, (hagree c).2.2.2.1, (hagree c).2.2.2.2.1, (hagree c).2.2.2.2.2]
  rfl

end Cert.KernelIdeal.HostChain

end
-- ==== Proof.LibPlainDot.lean ====
/-
  A plain matrix product read at an index.

  For dimension numbers that contract the left operand's axis 1 with the right operand's axis 0 and have no batch
  axes, the accelerator's matmul into a zero accumulator and the host's dot_general are, at the extended reals, both
  the sum over the contracted coordinate κ of the products l (p, κ) * r (κ, q).
-/
import Idealize.ShloMosaic.PureOps.Ideal.Laws
import Idealize.ShloMosaic.Lib.ValueIdx

noncomputable section

open scoped BigOperators

namespace Idealize.ShloMosaic.PlainDot
open Idealize.ShloMosaic Idealize.ShloMosaic.ValueIdx

/-- M×K by K×N: the left operand's axis 1 contracted with the right's axis 0, no batch axes. -/
structure IsPlain {M K N : Nat} (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

section Axes
variable {M K N : Nat} (d : DotDims ⟨2, ![M, K]⟩ ⟨2, ![K, N]⟩ ⟨2, ![M, N]⟩) (hd : IsPlain d)
include hd

/-- A plain product contracts exactly one axis. -/
theorem contr_rank : d.contr.rank = 1 := by
  rw [d.rank_contr, hd.lc]; rfl

/-- The contracted axis has the common extent K. -/
theorem contr_size : d.contr.size ⟨0, by rw [contr_rank d hd]; exact Nat.one_pos⟩ = K := by
  obtain ⟨lc, rc, ln, rn, lb, rb, wf⟩ := d
  obtain ⟨h1, h2, h3, h4, h5, h6⟩ := hd
  simp only at h1 h2 h3 h4 h5 h6
  subst h1 h2 h3 h4 h5 h6
  rfl

/-- The left operand's row coordinate is the output's row coordinate. -/
theorem lhs_axis0 (j : (⟨2, ![M, N]⟩ : Shape).Idx) (k : d.contr.Idx) : (d.lhsIdx j k 0).val = (j 0).val := by
  obtain ⟨lc, rc, ln, rn, lb, rb, wf⟩ := d
  obtain ⟨h1, h2, h3, h4, h5, h6⟩ := hd
  simp only at h1 h2 h3 h4 h5 h6
  subst h1 h2 h3 h4 h5 h6
  rfl

/-- The left operand's column coordinate is the contracted coordinate. -/
theorem lhs_axis1 (j : (⟨2, ![M, N]⟩ : Shape).Idx) (k : d.contr.Idx) :
    (d.lhsIdx j k 1).val = (k ⟨0, by rw [contr_rank d hd]; exact Nat.one_pos⟩).val :=
  d.lhsIdx_val_of_single hd.lc j k

/-- The right operand's row coordinate is the contracted coordinate. -/
theorem rhs_axis0 (j : (⟨2, ![M, N]⟩ : Shape).Idx) (k : d.contr.Idx) :
    (d.rhsIdx j k 0).val = (k ⟨0, by rw [contr_rank d hd]; exact Nat.one_pos⟩).val :=
  d.rhsIdx_val_of_single hd.rc j k

/-- The right operand's column coordinate is the output's column coordinate. -/
theorem rhs_axis1 (j : (⟨2, ![M, N]⟩ : Shape).Idx) (k : d.contr.Idx) : (d.rhsIdx j k 1).val = (j 1).val := by
  obtain ⟨lc, rc, ln, rn, lb, rb, wf⟩ := d
  obtain ⟨h1, h2, h3, h4, h5, h6⟩ := hd
  simp only at h1 h2 h3 h4 h5 h6
  subst h1 h2 h3 h4 h5 h6
  rfl

/-- The sum over the contraction index of a plain product, re-indexed by the contracted coordinate: the operands are
    read at (p, κ) and (κ, q). -/
theorem sum_contr_plain {φ₁ φ₂ : FTy} (l : FVec Ideal ⟨2, ![M, K]⟩ φ₁) (r : FVec Ideal ⟨2, ![K, N]⟩ φ₂)
    (p : Fin M) (q : Fin N) :
    ∑ k : d.contr.Idx, l (d.lhsIdx (ix2 p q) k) * r (d.rhsIdx (ix2 p q) k) = ∑ κ : Fin K, l (ix2 p κ) * r (ix2 κ q) := by
  refine (Equiv.sum_comp (contrEquiv1 d K (contr_rank d hd) (contr_size d hd)).symm _).symm.trans ?_
  refine Finset.sum_congr rfl fun κ _ => ?_
  have hl : d.lhsIdx (ix2 p q) ((contrEquiv1 d K (contr_rank d hd) (contr_size d hd)).symm κ) = ix2 p κ := by
    funext a
    match a with
    | ⟨0, _⟩ => exact Fin.ext (lhs_axis0 d hd _ _)
    | ⟨1, _⟩ => exact Fin.ext ((lhs_axis1 d hd _ _).trans (contrEquiv1_symm_val d K _ _ κ))
  have hr : d.rhsIdx (ix2 p q) ((contrEquiv1 d K (contr_rank d hd) (contr_size d hd)).symm κ) = ix2 κ q := by
    funext a
    match a with
    | ⟨0, _⟩ => exact Fin.ext ((rhs_axis0 d hd _ _).trans (contrEquiv1_symm_val d K _ _ κ))
    | ⟨1, _⟩ => exact Fin.ext (rhs_axis1 d hd _ _)
  rw [hl, hr]

end Axes

/-- The accelerator's matmul into the zero accumulator, for plain dimension numbers, at (p, q): the sum over κ of
    l (p, κ) * r (κ, q). -/
theorem matmul_zero_plain {M K N : Nat} {φ₁ φ₂ : FTy} (d : DotDims ⟨2, ![M, K]⟩ ⟨2, ![K, N]⟩ ⟨2, ![M, N]⟩) (hd : IsPlain d)
    (prec : Option ContractPrecision) (l : FVec Ideal ⟨2, ![M, K]⟩ φ₁) (r : FVec Ideal ⟨2, ![K, N]⟩ φ₂) (p : Fin M) (q : Fin N) :
    FloatOps.matmul d prec l r (constant ⟨2, ![M, N]⟩ .f32 0x00000000#32) (ix2 p q) = ∑ κ : Fin K, l (ix2 p κ) * r (ix2 κ q) :=
  (Ideal.matmul_constant_zero_apply d prec l r (ix2 p q)).trans (sum_contr_plain d hd l r p q)

/-- The host's dot_general, for plain dimension numbers, at (p, q): the same sum, whatever the schedule. -/
theorem dotGeneral_plain {M K N : Nat} {φ₁ φ₂ : FTy} (d : DotDims ⟨2, ![M, K]⟩ ⟨2, ![K, N]⟩ ⟨2, ![M, N]⟩) (hd : IsPlain d)
    (prec : Option ContractPrecision) (sched : HostSchedule)
    (l : FVec Ideal ⟨2, ![M, K]⟩ φ₁) (r : FVec Ideal ⟨2, ![K, N]⟩ φ₂) (p : Fin M) (q : Fin N) :
    FloatOps.dotGeneral d prec sched l r (ix2 p q) = ∑ κ : Fin K, l (ix2 p κ) * r (ix2 κ q) :=
  (Ideal.dotGeneral_apply d prec sched l r (ix2 p q)).trans (sum_contr_plain d hd l r p q)

end Idealize.ShloMosaic.PlainDot

end
-- ==== Proof.RowBlock.lean ====
/-
  One row block of a plain matrix product.

  Let x be an Mt×K array, w a K×N array, and let a block hold B rows of x: row p of the block is row r p of x. Then
  the accelerator's matmul of the block with w, accumulated into zero, holds at (p, q) what the host's dot_general of
  the whole arrays holds at (r p, q): both are the sum over κ of x (r p, κ) · w (κ, q). The operands' float formats
  play no part: on the extended reals every format is the same set of numbers.
-/
import proofs.«125844_j2448131358806_1_alg».proof.Proof.LibPlainDot

noncomputable section

open scoped BigOperators

namespace Idealize.ShloMosaic.PlainDot
open Idealize.ShloMosaic Idealize.ShloMosaic.ValueIdx

/-- Row p of a block's product with w is row r p of the whole product, when row p of the block is row r p of x and
    the block's copy of w is w. -/
theorem block_matmul_eq_dotGeneral {Mt B K N : Nat} {φ₁ φ₂ ψ₁ ψ₂ : FTy}
    (dB : DotDims ⟨2, ![B, K]⟩ ⟨2, ![K, N]⟩ ⟨2, ![B, N]⟩) (hB : IsPlain dB)
    (dW : DotDims ⟨2, ![Mt, K]⟩ ⟨2, ![K, N]⟩ ⟨2, ![Mt, N]⟩) (hW : IsPlain dW)
    (precB precW : Option ContractPrecision)
    (x : FVec Ideal ⟨2, ![Mt, K]⟩ ψ₁) (w : FVec Ideal ⟨2, ![K, N]⟩ ψ₂)
    (xb : FVec Ideal ⟨2, ![B, K]⟩ φ₁) (wb : FVec Ideal ⟨2, ![K, N]⟩ φ₂)
    (r : Fin B → Fin Mt)
    (hx : ∀ (p : Fin B) (κ : Fin K), xb (ix2 p κ) = x (ix2 (r p) κ))
    (hw : ∀ (κ : Fin K) (q : Fin N), wb (ix2 κ q) = w (ix2 κ q))
    (p : Fin B) (q : Fin N) :
    FloatOps.matmul dB precB xb wb (constant ⟨2, ![B, N]⟩ .f32 0x00000000#32) (ix2 p q)
      = Host.dotGeneral dW precW x w (ix2 (r p) q) := by
  refine (matmul_zero_plain dB hB precB xb wb p q).trans ?_
  refine Eq.trans ?_ (dotGeneral_plain dW hW precW .single x w (r p) q).symm
  exact Finset.sum_congr rfl fun κ _ => by rw [hx p κ, hw κ q]

end Idealize.ShloMosaic.PlainDot

end
-- ==== Proof.Region0Value.lean ====
/-
  What the first matrix-product region leaves in its output array.

  The region runs 25 grid points. Point t stages rows 2000·t … 2000·t + 1999 of the 50000×256 left array and the whole
  256×256 right array, multiplies the two into a zero accumulator, and writes the 2000×256 product back as rows
  2000·t … 2000·t + 1999 of the output array. The 25 row blocks tile the output. So after the run the output array
  holds at every (i, q) the sum over κ of left (i, κ) · right (κ, q): the host's dot_general of the two arrays as the
  region found them.
-/
import proofs.«125844_j2448131358806_1_alg».proof.Proof.Gen.KernelIdeal.Frame
import proofs.«125844_j2448131358806_1_alg».proof.Proof.RowBlock
import Idealize.ShloMosaic.Lib.Pipeline.Value

set_option maxRecDepth 16384

noncomputable section

namespace Cert.KernelIdeal.Region0

open Cert.KernelIdeal Cert.KernelIdeal.Gen
open Idealize.ShloMosaic Idealize.ShloMosaic.TcCoe Idealize.ShloMosaic.ValueIdx Idealize.ShloMosaic.PlainDot
open Idealize.SL.Sem
open Idealize.ShloMosaic.Pipeline (Dat)

-- The buffer contents the region is entered with, and any plain 50000×256 by 256×256 dimension numbers.
variable (V : (c : Dev nD) → (b : Ref sig .tc) → Buf (Elt Ideal) ((c : Thread nD τ).loc b))
variable (d : DotDims S50000x256 S256x256 S50000x256)

theorem origin_zero : (![0, 0] : Fin 2 → Nat) = fun _ => 0 := funext fun a => by fin_cases a <;> rfl

/-- The block product contracts the left block's columns with the right array's rows, no batch axes. -/
theorem plain_block : IsPlain dot_S2000x256_S256x256_S2000x256_1_0_0_1_n_n := ⟨rfl, rfl, rfl, rfl, rfl, rfl⟩

/-- The whole product of the two arrays as the region finds them. -/
abbrev product (c : Dev nD) : FVec Ideal S50000x256 .f32 :=
  Host.dotGeneral (φ₁ := .f32) (φ₂ := .f32) d none (V c main_arg0) (V c main_arg2)

/-- The body's value at (p, q), for blocks x0 of X (row p of x0 is row r p of X) and x1 = Wt: the whole product at
    (r p, q). The two changes of float format are the identity on the extended reals. -/
theorem body_at (hd : IsPlain d) (x0 : Vec Ideal S2000x256 .f32) (x1 : Vec Ideal S256x256 .f32)
    (X : FVec Ideal S50000x256 .f32) (Wt : FVec Ideal S256x256 .f32) (r : Fin 2000 → Fin 50000)
    (h0 : ∀ (p : Fin 2000) (κ : Fin 256), x0 (ix2 p κ) = X (ix2 (r p) κ))
    (h1 : ∀ (κ : Fin 256) (q : Fin 256), x1 (ix2 κ q) = Wt (ix2 κ q))
    (j : S2000x256.Idx) (i : S50000x256.Idx) (hi : i = ix2 (r (j 0)) (j 1)) :
    k0_pay1 x0 x1 j = Host.dotGeneral d none X Wt i := by
  subst hi
  obtain ⟨p, q, rfl⟩ : ∃ (p : Fin 2000) (q : Fin 256), j = ix2 p q := ⟨j 0, j 1, eq_ix2 j⟩
  exact block_matmul_eq_dotGeneral dot_S2000x256_S256x256_S2000x256_1_0_0_1_n_n plain_block d hd none none X Wt
    (truncf .bf16 x0 bitsLt_bf16_f32) (truncf .bf16 x1 bitsLt_bf16_f32) r h0 h1 p q

/-- The printed index maps over the grid: at point t the left window and the output window sit at row block t, the
    right window at its one block; and there are 25 points. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 ∧ t.val < 25 :=
  (by decide +kernel : ∀ t : Fin grid0.N, _)

/-- Every row block of the output is some point's. -/
theorem idx_onto : ∀ q0 : Fin 25, ∃ t : Fin cfg0.N, win0_2.index t = ![q0.val, 0] :=
  (by decide +kernel : ∀ q0 : Fin 25, ∃ t : Fin grid0.N, win0_2.index t = ![q0.val, 0])

/-- Row p of point t's block is row 2000·t + p of the array. -/
def rowOf (t : Fin cfg0.N) (p : Fin 2000) : Fin 50000 :=
  ⟨t.val * 2000 + p.val, by have := (idx_facts t).2.2.2.2.2.2; have := p.isLt; omega⟩

/-- The left window's block at point t is rows 2000·t … of the left array. -/
theorem read_left (c : Dev nD) (t : Fin cfg0.N) (p : Fin 2000) (κ : Fin 256) :
    iblk0 V c 0 t (ix2 p κ) = (V c main_arg0 : FVec Ideal S50000x256 .f32) (ix2 (rowOf t p) κ) := by
  show V c main_arg0 (((cfg0.win 0).blk t).view.emb (ix2 p κ)) = V c main_arg0 (ix2 (rowOf t p) κ)
  refine congrArg (V c main_arg0) ?_
  obtain ⟨e0, e1, -⟩ := idx_facts t
  funext a; apply Fin.ext
  match a with
  | ⟨0, _⟩ => show win0_0.index t (0 : Fin 2) * 2000 + 1 * p.val = t.val * 2000 + p.val; omega
  | ⟨1, _⟩ => show win0_0.index t (1 : Fin 2) * 256 + 1 * κ.val = κ.val; omega

/-- The right window's block at every point is the whole right array. -/
theorem read_right (c : Dev nD) (t : Fin cfg0.N) (κ : Fin 256) (q : Fin 256) :
    iblk0 V c 1 t (ix2 κ q) = (V c main_arg2 : FVec Ideal S256x256 .f32) (ix2 κ q) := by
  show V c main_arg2 (((cfg0.win 1).blk t).view.emb (ix2 κ q)) = V c main_arg2 (ix2 κ q)
  refine congrArg (V c main_arg2) ?_
  obtain ⟨-, -, e2, e3, -⟩ := idx_facts t
  funext a; apply Fin.ext
  match a with
  | ⟨0, _⟩ => show win0_1.index t (0 : Fin 2) * 256 + 1 * κ.val = κ.val; omega
  | ⟨1, _⟩ => show win0_1.index t (1 : Fin 2) * 256 + 1 * q.val = q.val; omega

/-- What point t writes back is block t of the whole product. -/
theorem flushed_eq (hd : IsPlain d) (c : Dev nD) (t : Fin cfg0.N) :
    (dat0 V c).flushed 2 t = ((cfg0.win 2).blk t).view.read (Elt Ideal) (product V d c) := by
  show (cfg0.win 2).cut (grid0.coords t) ((dat0 V c).after 2 t) = _
  rw [after0_2]
  unfold out0_2
  rw [View.canon_unit_zero origin_zero]
  simp only [View.ld_unit_zero (S := S2000x256) origin_zero, View.ld_unit_zero (S := S256x256) origin_zero]
  funext j
  show k0_pay1 (iblk0 V c 0 t) (iblk0 V c 1 t) j = product V d c (((cfg0.win 2).blk t).view.emb j)
  refine body_at d hd (iblk0 V c 0 t) (iblk0 V c 1 t) (V c main_arg0) (V c main_arg2) (rowOf t)
    (read_left V c t) (read_right V c t) j _ ?_
  obtain ⟨-, -, -, -, e4, e5, -⟩ := idx_facts t
  funext a; apply Fin.ext
  match a with
  | ⟨0, _⟩ => show win0_2.index t (0 : Fin 2) * 2000 + 1 * (j 0).val = t.val * 2000 + (j 0).val; omega
  | ⟨1, _⟩ => show win0_2.index t (1 : Fin 2) * 256 + 1 * (j 1).val = (j 1).val; omega

/-- An index of the output array is in point t's block iff each coordinate is in the block's range on its axis. -/
theorem mem_block (t : Fin cfg0.N) (i : S50000x256.Idx) :
    i ∈ ((cfg0.win 2).blk t).view.set ↔ ∀ a : Fin 2, win0_2.index t a * S2000x256.size a ≤ (i a).val ∧ (i a).val < win0_2.index t a * S2000x256.size a + S2000x256.size a := by
  show i ∈ ((View.whole main_v32).slice (win0_2.rect t)).set ↔ _
  rw [View.set_slice_whole, Rect.mem_set_unit]
  exact Iff.rfl

/-- The 25 row blocks cover the output array: row i is in block i / 2000. -/
theorem cover (i : S50000x256.Idx) : ∃ t : Fin cfg0.N, (cfg0.win 2).flush t = true ∧ i ∈ ((cfg0.win 2).blk t).view.set := by
  have hi0 : (i 0).val < 50000 := (i 0).isLt
  have hi1 : (i 1).val < 256 := (i 1).isLt
  obtain ⟨t, ht⟩ := idx_onto ⟨(i 0).val / 2000, by omega⟩
  have q0 : win0_2.index t (0 : Fin 2) = (i 0).val / 2000 := congrFun ht 0
  have q1 : win0_2.index t (1 : Fin 2) = 0 := congrFun ht 1
  refine ⟨t, flush0_2 t, ?_⟩
  rw [mem_block]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 256 ≤ (i 1).val ∧ (i 1).val < win0_2.index t (1 : Fin 2) * 256 + 256; omega

/-- After the region's 25 points the output array is the whole product of the two arrays the region was entered with. -/
theorem final (hd : IsPlain d) (c : Dev nD) : (dat0 V c).arrAt 2 cfg0.N = product V d c :=
  (dat0 V c).arrAt_eq_of_cover 2 (product V d c) (fun t _ => flushed_eq V d hd c t) cover

end Cert.KernelIdeal.Region0

end
-- ==== Proof.Region1Value.lean ====
/-
  What the second matrix-product region leaves in its output array.

  The region runs 25 grid points. Point t stages rows 2000·t … 2000·t + 1999 of the 50000×256 left array (the first
  layer's activations) and the whole 256×128 right array, multiplies the two into a zero accumulator, and writes the
  2000×128 product back as rows 2000·t … 2000·t + 1999 of the output array. The 25 row blocks tile the output. So after
  the run the output array holds at every (i, q) the sum over κ of left (i, κ) · right (κ, q): the host's dot_general
  of the two arrays as the region found them. The body first recasts the left block to its own shape, which changes
  nothing.
-/
import proofs.«125844_j2448131358806_1_alg».proof.Proof.Gen.KernelIdeal.Frame
import proofs.«125844_j2448131358806_1_alg».proof.Proof.RowBlock
import Idealize.ShloMosaic.Lib.Pipeline.Value

set_option maxRecDepth 16384

noncomputable section

namespace Cert.KernelIdeal.Region1

open Cert.KernelIdeal Cert.KernelIdeal.Gen
open Idealize.ShloMosaic Idealize.ShloMosaic.TcCoe Idealize.ShloMosaic.ValueIdx Idealize.ShloMosaic.PlainDot
open Idealize.SL.Sem
open Idealize.ShloMosaic.Pipeline (Dat)

-- The buffer contents the region is entered with, and any plain 50000×256 by 256×128 dimension numbers.
variable (V : (c : Dev nD) → (b : Ref sig .tc) → Buf (Elt Ideal) ((c : Thread nD τ).loc b))
variable (d : DotDims S50000x256 S256x128 S50000x128)

theorem origin_zero : (![0, 0] : Fin 2 → Nat) = fun _ => 0 := funext fun a => by fin_cases a <;> rfl

/-- The block product contracts the left block's columns with the right array's rows, no batch axes. -/
theorem plain_block : IsPlain dot_S2000x256_S256x128_S2000x128_1_0_0_1_n_n := ⟨rfl, rfl, rfl, rfl, rfl, rfl⟩

/-- The whole product of the two arrays as the region finds them. -/
abbrev product (c : Dev nD) : FVec Ideal S50000x128 .f32 :=
  Host.dotGeneral (φ₁ := .f32) (φ₂ := .f32) d none (V c main_v49) (V c main_arg4)

/-- The body's value at (p, q), for blocks x0 of X (row p of x0 is row r p of X) and x1 = Wt: the whole product at
    (r p, q). The recast of x0 to its own shape and the two changes of float format are the identity. -/
theorem body_at (hd : IsPlain d) (x0 : Vec Ideal S2000x256 .f32) (x1 : Vec Ideal S256x128 .f32)
    (X : FVec Ideal S50000x256 .f32) (Wt : FVec Ideal S256x128 .f32) (r : Fin 2000 → Fin 50000)
    (h0 : ∀ (p : Fin 2000) (κ : Fin 256), x0 (ix2 p κ) = X (ix2 (r p) κ))
    (h1 : ∀ (κ : Fin 256) (q : Fin 128), x1 (ix2 κ q) = Wt (ix2 κ q))
    (j : S2000x128.Idx) (i : S50000x128.Idx) (hi : i = ix2 (r (j 0)) (j 1)) :
    k1_pay1 x0 x1 j = Host.dotGeneral d none X Wt i := by
  subst hi
  obtain ⟨p, q, rfl⟩ : ∃ (p : Fin 2000) (q : Fin 128), j = ix2 p q := ⟨j 0, j 1, eq_ix2 j⟩
  exact block_matmul_eq_dotGeneral dot_S2000x256_S256x128_S2000x128_1_0_0_1_n_n plain_block d hd none none X Wt
    (truncf .bf16 (shapeCast S2000x256 x0 shapeCasts_S2000x256_S2000x256) bitsLt_bf16_f32) (truncf .bf16 x1 bitsLt_bf16_f32) r
    (fun p κ => (congrFun (shapeCast_self x0 shapeCasts_S2000x256_S2000x256) (ix2 p κ)).trans (h0 p κ)) h1 p q

/-- The printed index maps over the grid: at point t the left window and the output window sit at row block t, the
    right window at its one block; and there are 25 points. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 ∧ t.val < 25 :=
  (by decide +kernel : ∀ t : Fin grid1.N, _)

/-- Every row block of the output is some point's. -/
theorem idx_onto : ∀ q0 : Fin 25, ∃ t : Fin cfg1.N, win1_2.index t = ![q0.val, 0] :=
  (by decide +kernel : ∀ q0 : Fin 25, ∃ t : Fin grid1.N, win1_2.index t = ![q0.val, 0])

/-- Row p of point t's block is row 2000·t + p of the array. -/
def rowOf (t : Fin cfg1.N) (p : Fin 2000) : Fin 50000 :=
  ⟨t.val * 2000 + p.val, by have := (idx_facts t).2.2.2.2.2.2; have := p.isLt; omega⟩

/-- The left window's block at point t is rows 2000·t … of the left array. -/
theorem read_left (c : Dev nD) (t : Fin cfg1.N) (p : Fin 2000) (κ : Fin 256) :
    iblk1 V c 0 t (ix2 p κ) = (V c main_v49 : FVec Ideal S50000x256 .f32) (ix2 (rowOf t p) κ) := by
  show V c main_v49 (((cfg1.win 0).blk t).view.emb (ix2 p κ)) = V c main_v49 (ix2 (rowOf t p) κ)
  refine congrArg (V c main_v49) ?_
  obtain ⟨e0, e1, -⟩ := idx_facts t
  funext a; apply Fin.ext
  match a with
  | ⟨0, _⟩ => show win1_0.index t (0 : Fin 2) * 2000 + 1 * p.val = t.val * 2000 + p.val; omega
  | ⟨1, _⟩ => show win1_0.index t (1 : Fin 2) * 256 + 1 * κ.val = κ.val; omega

/-- The right window's block at every point is the whole right array. -/
theorem read_right (c : Dev nD) (t : Fin cfg1.N) (κ : Fin 256) (q : Fin 128) :
    iblk1 V c 1 t (ix2 κ q) = (V c main_arg4 : FVec Ideal S256x128 .f32) (ix2 κ q) := by
  show V c main_arg4 (((cfg1.win 1).blk t).view.emb (ix2 κ q)) = V c main_arg4 (ix2 κ q)
  refine congrArg (V c main_arg4) ?_
  obtain ⟨-, -, e2, e3, -⟩ := idx_facts t
  funext a; apply Fin.ext
  match a with
  | ⟨0, _⟩ => show win1_1.index t (0 : Fin 2) * 256 + 1 * κ.val = κ.val; omega
  | ⟨1, _⟩ => show win1_1.index t (1 : Fin 2) * 128 + 1 * q.val = q.val; omega

/-- What point t writes back is block t of the whole product. -/
theorem flushed_eq (hd : IsPlain d) (c : Dev nD) (t : Fin cfg1.N) :
    (dat1 V c).flushed 2 t = ((cfg1.win 2).blk t).view.read (Elt Ideal) (product V d c) := by
  show (cfg1.win 2).cut (grid1.coords t) ((dat1 V c).after 2 t) = _
  rw [after1_2]
  unfold out1_2
  rw [View.canon_unit_zero origin_zero]
  simp only [View.ld_unit_zero (S := S2000x256) origin_zero, View.ld_unit_zero (S := S256x128) origin_zero]
  funext j
  show k1_pay1 (iblk1 V c 0 t) (iblk1 V c 1 t) j = product V d c (((cfg1.win 2).blk t).view.emb j)
  refine body_at d hd (iblk1 V c 0 t) (iblk1 V c 1 t) (V c main_v49) (V c main_arg4) (rowOf t)
    (read_left V c t) (read_right V c t) j _ ?_
  obtain ⟨-, -, -, -, e4, e5, -⟩ := idx_facts t
  funext a; apply Fin.ext
  match a with
  | ⟨0, _⟩ => show win1_2.index t (0 : Fin 2) * 2000 + 1 * (j 0).val = t.val * 2000 + (j 0).val; omega
  | ⟨1, _⟩ => show win1_2.index t (1 : Fin 2) * 128 + 1 * (j 1).val = (j 1).val; omega

/-- An index of the output array is in point t's block iff each coordinate is in the block's range on its axis. -/
theorem mem_block (t : Fin cfg1.N) (i : S50000x128.Idx) :
    i ∈ ((cfg1.win 2).blk t).view.set ↔ ∀ a : Fin 2, win1_2.index t a * S2000x128.size a ≤ (i a).val ∧ (i a).val < win1_2.index t a * S2000x128.size a + S2000x128.size a := by
  show i ∈ ((View.whole main_v50).slice (win1_2.rect t)).set ↔ _
  rw [View.set_slice_whole, Rect.mem_set_unit]
  exact Iff.rfl

/-- The 25 row blocks cover the output array: row i is in block i / 2000. -/
theorem cover (i : S50000x128.Idx) : ∃ t : Fin cfg1.N, (cfg1.win 2).flush t = true ∧ i ∈ ((cfg1.win 2).blk t).view.set := by
  have hi0 : (i 0).val < 50000 := (i 0).isLt
  have hi1 : (i 1).val < 128 := (i 1).isLt
  obtain ⟨t, ht⟩ := idx_onto ⟨(i 0).val / 2000, by omega⟩
  have q0 : win1_2.index t (0 : Fin 2) = (i 0).val / 2000 := congrFun ht 0
  have q1 : win1_2.index t (1 : Fin 2) = 0 := congrFun ht 1
  refine ⟨t, flush1_2 t, ?_⟩
  rw [mem_block]
  intro a
  match a with
  | ⟨0, _⟩ => show win1_2.index t (0 : Fin 2) * 2000 ≤ (i 0).val ∧ (i 0).val < win1_2.index t (0 : Fin 2) * 2000 + 2000; omega
  | ⟨1, _⟩ => show win1_2.index t (1 : Fin 2) * 128 ≤ (i 1).val ∧ (i 1).val < win1_2.index t (1 : Fin 2) * 128 + 128; omega

/-- After the region's 25 points the output array is the whole product of the two arrays the region was entered with. -/
theorem final (hd : IsPlain d) (c : Dev nD) : (dat1 V c).arrAt 2 cfg1.N = product V d c :=
  (dat1 V c).arrAt_eq_of_cover 2 (product V d c) (fun t _ => flushed_eq V d hd c t) cover

end Cert.KernelIdeal.Region1

end
-- ==== Proof.KernelValue.lean ====
/-
  The kernel's result on the extended reals.

  On the extended reals each region's output array is the whole product of the two arrays it read: the features by
  the first weights after the first region, the first layer's activations by the second weights after the second.
  With the host operations shared between the two programs, the kernel's result buffer therefore holds the reference's
  composed term of the arguments.
-/
import proofs.«125844_j2448131358806_1_alg».proof.Proof.HostChain
import proofs.«125844_j2448131358806_1_alg».proof.Proof.Region0Value
import proofs.«125844_j2448131358806_1_alg».proof.Proof.Region1Value

set_option maxRecDepth 16384

noncomputable section

namespace Cert.KernelIdeal.ResultValue

open Cert.KernelIdeal Cert.KernelIdeal.Gen Cert.KernelIdeal.HostChain
open Idealize.ShloMosaic Idealize.ShloMosaic.TcCoe Idealize.ShloMosaic.PlainDot
open Idealize.SL.Sem

variable (m : (ℓ : Loc nD τ sig) → Buf (Elt Ideal) ℓ) (ρ : Dev nD → PrngReg)

/-- The reference's two products contract the left array's columns with the right array's rows, no batch axes. -/
theorem plainA : IsPlain dA := ⟨rfl, rfl, rfl, rfl, rfl, rfl⟩
theorem plainB : IsPlain dB := ⟨rfl, rfl, rfl, rfl, rfl, rfl⟩

/-- After the first region its output array is the whole product of the input features and the first weight array as
    the region found them. -/
theorem W4_v32 (c : Dev nD) : W4 m ρ c (Proc.devRef .tc main_v32)
    = Host.dotGeneral (F := Ideal) (φ₁ := .f32) (φ₂ := .f32) dA none (W3 m ρ c (Proc.devRef .tc main_arg0)) (W3 m ρ c (Proc.devRef .tc main_arg2)) :=
  (W4_arr m ρ c 2).trans (Region0.final (V3 m ρ) dA plainA c)

/-- After the second region its output array is the whole product of the activations and the second weight array as
    the region found them. -/
theorem W7_v50 (c : Dev nD) : W7 m ρ c (Proc.devRef .tc main_v50)
    = Host.dotGeneral (F := Ideal) (φ₁ := .f32) (φ₂ := .f32) dB none (W6 m ρ c (Proc.devRef .tc main_v49)) (W6 m ρ c (Proc.devRef .tc main_arg4)) :=
  (W7_arr m ρ c 2).trans (Region1.final (V6 m ρ) dB plainB c)

/-- The kernel's result buffer at the last boundary is the reference's composed term, for memories that agree on the
    arguments. -/
theorem result_eq
    (m' : (ℓ : Loc Cert.ReferenceIdeal.nD Cert.ReferenceIdeal.τ Cert.ReferenceIdeal.sig) → Buf (Elt Ideal) ℓ)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) (c : Dev nD) :
    W8 m ρ c (Proc.devRef .tc main_v66) = Cert.ReferenceIdeal.ValueP.res_main_v66 m' c :=
  result_of_products m ρ m' hagree c (W4_v32 m ρ c) (W7_v50 m ρ c)

end Cert.KernelIdeal.ResultValue

end
-- ==== Proof.lean ====
/-
  A two-layer graph convolution against its reference, over the extended reals.

  Both programs compute, for node features x, an edge list and weights W1, b1, W2, b2:
      out = Â · relu(Â · (x · W1) + b1) · W2 + b2,
  where Â is the adjacency with self-loops, normalised symmetrically by the in-degrees: the edge list is extended by
  a loop at every node, the degree of a node counts the edges that end there, and an edge from s to t carries
  d(s)^(-1/2) · d(t)^(-1/2) (zero where a degree is zero); "Â · h" gathers the rows of h at the sources, scales each by
  its edge's weight and adds it into the row of its destination.

  The two programs apply these operations identically, one by one, except for the two dense products x · W1 and
  h · W2. The reference computes each as one whole matrix product. The kernel's program computes each in a region of 25
  grid points: point t multiplies rows 2000·t … 2000·t + 1999 of the left array by the whole right array, both read
  through a narrower float format, into a zero accumulator, and writes the 2000 rows back. On the extended reals a
  change of float format is the identity and both kinds of product are the sum over κ of left (i, κ) · right (κ, q);
  the 25 row blocks tile the output; so each region leaves exactly the reference's product, and the two results are
  the same term of the arguments. No law beyond that equality of sums is used, and the inputs' finiteness is not
  needed.

  The three runs: the two kernel programs terminate without a fault and leave their arguments as launched (the
  generated run of the host stretches and the two regions); the reference's run is its host operations read back. The
  idealization rewrote no operation, so there is nothing to preserve beyond the program's own text.
-/
import proofs.«125844_j2448131358806_1_alg».proof.Defs
import proofs.«125844_j2448131358806_1_alg».proof.Proof.Gen.Kernel
import proofs.«125844_j2448131358806_1_alg».proof.Proof.Gen.Kernel.Skeleton
import proofs.«125844_j2448131358806_1_alg».proof.Proof.Gen.Kernel.Launch
import proofs.«125844_j2448131358806_1_alg».proof.Proof.Gen.Kernel.Points
import proofs.«125844_j2448131358806_1_alg».proof.Proof.Gen.Kernel.Frame
import proofs.«125844_j2448131358806_1_alg».proof.Proof.Gen.KernelIdeal
import proofs.«125844_j2448131358806_1_alg».proof.Proof.Gen.KernelIdeal.Skeleton
import proofs.«125844_j2448131358806_1_alg».proof.Proof.Gen.KernelIdeal.Launch
import proofs.«125844_j2448131358806_1_alg».proof.Proof.Gen.KernelIdeal.Points
import proofs.«125844_j2448131358806_1_alg».proof.Proof.Gen.KernelIdeal.Frame
import proofs.«125844_j2448131358806_1_alg».proof.Proof.Gen.ReferenceIdeal
import proofs.«125844_j2448131358806_1_alg».proof.Proof.Gen.Pre_finite_inputs
import proofs.«125844_j2448131358806_1_alg».proof.Proof.RefRun
import proofs.«125844_j2448131358806_1_alg».proof.Proof.KernelRun
import proofs.«125844_j2448131358806_1_alg».proof.Proof.KernelValue
import Idealize.ShloMosaic.Adequacy
import Idealize.ShloMosaic.Init

noncomputable section

namespace Cert.Proof

open Idealize.ShloMosaic Idealize.ShloMosaic.TcCoe Idealize.SL.Sem

/-- The word-level kernel program runs and leaves its arguments as launched. -/
theorem frame_kernel : Cert.frame_Kernel := fun m ρ _ => Cert.Kernel.Gen.frame m ρ

/-- So does the kernel program read on the extended reals. -/
theorem frame_kernelIdeal : Cert.frame_KernelIdeal := fun m ρ _ => Cert.KernelIdeal.Gen.frame m ρ

/-- The reference runs and leaves its arguments as launched: its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- On the extended reals, from memories that agree on the arguments, both programs run and end with the same
    result: the kernel's result buffer is the last boundary's contents, which is the reference's composed term. -/
theorem algebraic : Cert.algebraic_KernelIdeal_ReferenceIdeal := by
  intro m ρ m' ρ' _ hagree
  refine ⟨fun c => Cert.KernelIdeal.Gen.W8 m ρ c (Proc.devRef .tc Cert.KernelIdeal.main_v66),
    Cert.KernelIdeal.RunP.run_named m ρ, ?_⟩
  refine (θ_run Cert.ReferenceIdeal.defs _ _).mono (fun _ h c => ⟨(h c).1.trans ?_, (h c).2⟩)
    (Cert.ReferenceIdeal.ValueP.run (F := Ideal) m' ρ')
  exact (Cert.KernelIdeal.ResultValue.result_eq m ρ m' hagree c).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
